-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x32x16 : Shape := ⟨4, ![8, 64, 32, 16]⟩
abbrev S32x64 : Shape := ⟨2, ![32, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S_ : Shape := ⟨0, ![]⟩

class Facts : Prop where
  bcast_S_S8x64x32x16 : S_.BroadcastsInDim S8x64x32x16 (![] : Fin 0 → Fin S8x64x32x16.rank)
  reducesTo_S8x64x32x16_S_d0_1_2_3 : S8x64x32x16.ReducesTo [0, 1, 2, 3] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S64 .f32) (main_arg5 : FVec F S64x8 .f32) (main_arg6 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x8 .f32 := Host.absf main_arg5
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S8x64x32x16 .f32) (main_arg1 : FVec F S32x64 .f32) (main_arg2 : FVec F S64 .f32) (main_arg3 : FVec F S64x64 .f32) (main_arg4 : FVec F S64 .f32) (main_arg5 : FVec F S64x8 .f32) (main_arg6 : FVec F S8 .f32) : IVec S_ 1 :=
  let main_v0 : FVec F S8x64x32x16 .f32 := Host.absf main_arg0
  let main_cst : FVec F S_ .f32 := constant S_ .f32 0x7F800000#32
  let main_v1 : FVec F S8x64x32x16 .f32 := broadcastInDim S8x64x32x16 ![] bcast_S_S8x64x32x16 main_cst
  let main_v2 : IVec S8x64x32x16 1 := cmpf .olt main_v0 main_v1
  let main_c : IVec S_ 1 := constantI S_ 1 1#1
  let main_v3 : IVec S_ 1 := (fun x v => Host.reduce IntOp.andi x v reducesTo_S8x64x32x16_S_d0_1_2_3 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S8x64x32x16 : Shape := ⟨4, ![8, 64, 32, 16]⟩
abbrev S32x64 : Shape := ⟨2, ![32, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S512x32x16 : Shape := ⟨3, ![512, 32, 16]⟩
abbrev S512x32x32x8 : Shape := ⟨4, ![512, 32, 32, 8]⟩
abbrev S8x32x16 : Shape := ⟨3, ![8, 32, 16]⟩
abbrev S8x32x32x8 : Shape := ⟨4, ![8, 32, 32, 8]⟩
abbrev S8x32x1x16 : Shape := ⟨4, ![8, 32, 1, 16]⟩
abbrev S8x32x32x16 : Shape := ⟨4, ![8, 32, 32, 16]⟩
abbrev S8x1x32x16 : Shape := ⟨4, ![8, 1, 32, 16]⟩
abbrev S8x32x32x32 : Shape := ⟨4, ![8, 32, 32, 32]⟩
abbrev S8192x32 : Shape := ⟨2, ![8192, 32]⟩
abbrev S8192x64 : Shape := ⟨2, ![8192, 64]⟩
abbrev S1x64 : Shape := ⟨2, ![1, 64]⟩
abbrev S8192x8 : Shape := ⟨2, ![8192, 8]⟩
abbrev S1x8 : Shape := ⟨2, ![1, 8]⟩
abbrev S8x64x32x32x8 : Shape := ⟨5, ![8, 64, 32, 32, 8]⟩

abbrev nBuf : Space → Nat
  | .hbm => 10
  | .vmem => 10
  | .smem => 0
  | _ => 0

abbrev bufTy : (tb : Table) → Fin (tcTables nBuf tb) → BufTy
  | .hbm, ⟨0, _⟩ => ⟨S8x64x32x16, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x8, .f32⟩
  | .hbm, ⟨6, _⟩ => ⟨S8, .f32⟩
  | .hbm, ⟨7, _⟩ => ⟨S512x32x16, .f32⟩
  | .hbm, ⟨8, _⟩ => ⟨S512x32x32x8, .f32⟩
  | .hbm, ⟨9, _⟩ => ⟨S8x64x32x32x8, .f32⟩
  | .local _ .vmem, ⟨0, _⟩ => ⟨S8x32x16, .f32⟩
  | .local _ .vmem, ⟨1, _⟩ => ⟨S8x32x16, .f32⟩
  | .local _ .vmem, ⟨2, _⟩ => ⟨S32x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x8, .f32⟩
  | .local _ .vmem, ⟨7, _⟩ => ⟨S8, .f32⟩
  | .local _ .vmem, ⟨8, _⟩ => ⟨S8x32x32x8, .f32⟩
  | .local _ .vmem, ⟨9, _⟩ => ⟨S8x32x32x8, .f32⟩
  | _, _ => ⟨S8x64x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x32x32x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x64x32x16_S512x32x16 : S8x64x32x16.ShapeCasts S512x32x16
  inb_S8x32x16_S8x32x16_0_0_0 : ∀ a, (![0, 0, 0] : Fin 3 → Nat) a + S8x32x16.size a ≤ S8x32x16.size a
  h_S8x32x16 : 0 < S8x32x16.numel
  shapeCasts_S8x32x16_S8x32x16 : S8x32x16.ShapeCasts S8x32x16
  shapeCasts_S8x32x16_S8x32x1x16 : S8x32x16.ShapeCasts S8x32x1x16
  shapeCasts_S8x32x1x16_S8x32x1x16 : S8x32x1x16.ShapeCasts S8x32x1x16
  broadcasts_S8x32x1x16_S8x32x32x16 : S8x32x1x16.Broadcasts S8x32x32x16
  shapeCasts_S8x32x16_S8x1x32x16 : S8x32x16.ShapeCasts S8x1x32x16
  shapeCasts_S8x1x32x16_S8x1x32x16 : S8x1x32x16.ShapeCasts S8x1x32x16
  broadcasts_S8x1x32x16_S8x32x32x16 : S8x1x32x16.Broadcasts S8x32x32x16
  concatenates_S8x32x32x16_S8x32x32x16_S8x32x32x32_d3 : Shape.Concatenates [S8x32x32x16, S8x32x32x16] S8x32x32x32 3
  shapeCasts_S8x32x32x32_S8192x32 : S8x32x32x32.ShapeCasts S8192x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  shapeCasts_S8_S1x8 : S8.ShapeCasts S1x8
  broadcasts_S1x8_S8192x8 : S1x8.Broadcasts S8192x8
  shapeCasts_S8192x8_S8x32x32x8 : S8192x8.ShapeCasts S8x32x32x8
  inb_S8x32x32x8_S8x32x32x8_0_0_0_0 : ∀ a, (![0, 0, 0, 0] : Fin 4 → Nat) a + S8x32x32x8.size a ≤ S8x32x32x8.size a
  h_S8x32x32x8 : 0 < S8x32x32x8.numel
  shapeCasts_S512x32x32x8_S8x64x32x32x8 : S512x32x32x8.ShapeCasts S8x64x32x32x8
  dot_S8192x32_S32x64_S8192x64_1_0_0_1_n_n_wf : DotDims.WF S8192x32 S32x64 S8192x64 [1] [0] [0] [1] [] []
  dot_S8192x64_S64x64_S8192x64_1_0_0_1_n_n_wf : DotDims.WF S8192x64 S64x64 S8192x64 [1] [0] [0] [1] [] []
  dot_S8192x64_S64x8_S8192x8_1_0_0_1_n_n_wf : DotDims.WF S8192x64 S64x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x16.size a ≤ S512x32x16.size a
  hwx0_0 : ∀ i : grid0.Coords, EltTy.bits .f32 = 32 ∨ (Rect.block (s := S512x32x16) S8x32x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x8.size a ≤ S64x8.size a
  hwx0_5 : ∀ i : grid0.Coords, EltTy.bits .f32 = 32 ∨ (Rect.block (s := S64x8) S64x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x32x32x8.size a ≤ S512x32x32x8.size a
  hwx0_7 : ∀ i : grid0.Coords, EltTy.bits .f32 = 32 ∨ (Rect.block (s := S512x32x32x8) S8x32x32x8.size (cc0_transform_7 i) (hinb0_7 i)).WholeWords (EltTy.packing .f32)

variable [Facts₀]

def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8_S8192x8_1_0_0_1_n_n : DotDims S8192x64 S64x8 S8192x8 where
  lhsContracting := [1]
  rhsContracting := [0]
  lhsNonContracting := [0]
  rhsNonContracting := [1]
  lhsBatch := []
  rhsBatch := []
  wf := dot_S8192x64_S64x8_S8192x8_1_0_0_1_n_n_wf

abbrev win0_0 : Pipeline.Window sig grid0 :=
  Pipeline.Window.ofSpec (Memref.whole main_v0) S8x32x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S8x32x32x8.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x64x32x16 : Shape := ⟨4, ![8, 64, 32, 16]⟩
abbrev S32x64 : Shape := ⟨2, ![32, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S8x64x32x1x16 : Shape := ⟨5, ![8, 64, 32, 1, 16]⟩
abbrev S8x64x32x32x16 : Shape := ⟨5, ![8, 64, 32, 32, 16]⟩
abbrev S8x64x1x32x16 : Shape := ⟨5, ![8, 64, 1, 32, 16]⟩
abbrev S8x64x32x32x32 : Shape := ⟨5, ![8, 64, 32, 32, 32]⟩
abbrev S8x64x32x32x64 : Shape := ⟨5, ![8, 64, 32, 32, 64]⟩
abbrev S1x1x1x1x64 : Shape := ⟨5, ![1, 1, 1, 1, 64]⟩
abbrev S_ : Shape := ⟨0, ![]⟩
abbrev S8x64x32x32x8 : Shape := ⟨5, ![8, 64, 32, 32, 8]⟩
abbrev S1x1x1x1x8 : Shape := ⟨5, ![1, 1, 1, 1, 8]⟩

abbrev nBuf : Space → Nat
  | .hbm => 38
  | .vmem => 0
  | .smem => 0
  | _ => 0

abbrev bufTy : (tb : Table) → Fin (tcTables nBuf tb) → BufTy
  | .hbm, ⟨0, _⟩ => ⟨S8x64x32x16, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x8, .f32⟩
  | .hbm, ⟨6, _⟩ => ⟨S8, .f32⟩
  | .hbm, ⟨7, _⟩ => ⟨S8x64x32x1x16, .f32⟩
  | .hbm, ⟨8, _⟩ => ⟨S8x64x32x32x16, .f32⟩
  | .hbm, ⟨9, _⟩ => ⟨S8x64x1x32x16, .f32⟩
  | .hbm, ⟨10, _⟩ => ⟨S8x64x32x32x16, .f32⟩
  | .hbm, ⟨11, _⟩ => ⟨S8x64x32x32x32, .f32⟩
  | .hbm, ⟨12, _⟩ => ⟨S8x64x32x32x64, .f32⟩
  | .hbm, ⟨13, _⟩ => ⟨S1x1x1x1x64, .f32⟩
  | .hbm, ⟨14, _⟩ => ⟨S8x64x32x32x64, .f32⟩
  | .hbm, ⟨15, _⟩ => ⟨S8x64x32x32x64, .f32⟩
  | .hbm, ⟨16, _⟩ => ⟨S_, .f32⟩
  | .hbm, ⟨17, _⟩ => ⟨S8x64x32x32x64, .f32⟩
  | .hbm, ⟨18, _⟩ => ⟨S8x64x32x32x64, .f32⟩
  | .hbm, ⟨19, _⟩ => ⟨S8x64x32x32x64, .f32⟩
  | .hbm, ⟨20, _⟩ => ⟨S1x1x1x1x64, .f32⟩
  | .hbm, ⟨21, _⟩ => ⟨S8x64x32x32x64, .f32⟩
  | .hbm, ⟨22, _⟩ => ⟨S8x64x32x32x64, .f32⟩
  | .hbm, ⟨23, _⟩ => ⟨S_, .f32⟩
  | .hbm, ⟨24, _⟩ => ⟨S8x64x32x32x64, .f32⟩
  | .hbm, ⟨25, _⟩ => ⟨S8x64x32x32x64, .f32⟩
  | .hbm, ⟨26, _⟩ => ⟨S8x64x32x32x8, .f32⟩
  | .hbm, ⟨27, _⟩ => ⟨S1x1x1x1x8, .f32⟩
  | .hbm, ⟨28, _⟩ => ⟨S8x64x32x32x8, .f32⟩
  | .hbm, ⟨29, _⟩ => ⟨S8x64x32x32x8, .f32⟩
  | .hbm, ⟨30, _⟩ => ⟨S8x64x32x32x8, .f32⟩
  | .hbm, ⟨31, _⟩ => ⟨S8x64x32x32x8, .f32⟩
  | .hbm, ⟨32, _⟩ => ⟨S_, .f32⟩
  | .hbm, ⟨33, _⟩ => ⟨S8x64x32x32x8, .f32⟩
  | .hbm, ⟨34, _⟩ => ⟨S8x64x32x32x8, .f32⟩
  | .hbm, ⟨35, _⟩ => ⟨S_, .f32⟩
  | .hbm, ⟨36, _⟩ => ⟨S8x64x32x32x8, .f32⟩
  | .hbm, ⟨37, _⟩ => ⟨S8x64x32x32x8, .f32⟩
  | _, _ => ⟨S8x64x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_cst : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S8x64x32x16_S8x64x32x1x16_0_1_2_4 : S8x64x32x16.BroadcastsInDim S8x64x32x1x16 (![0, 1, 2, 4] : Fin 4 → Fin S8x64x32x1x16.rank)
  bcast_S8x64x32x1x16_S8x64x32x32x16_0_1_2_3_4 : S8x64x32x1x16.BroadcastsInDim S8x64x32x32x16 (![0, 1, 2, 3, 4] : Fin 5 → Fin S8x64x32x32x16.rank)
  bcast_S8x64x32x16_S8x64x1x32x16_0_1_3_4 : S8x64x32x16.BroadcastsInDim S8x64x1x32x16 (![0, 1, 3, 4] : Fin 4 → Fin S8x64x1x32x16.rank)
  bcast_S8x64x1x32x16_S8x64x32x32x16_0_1_2_3_4 : S8x64x1x32x16.BroadcastsInDim S8x64x32x32x16 (![0, 1, 2, 3, 4] : Fin 5 → Fin S8x64x32x32x16.rank)
  concatenates_S8x64x32x32x16_S8x64x32x32x16_S8x64x32x32x32_d4 : Shape.Concatenates [S8x64x32x32x16, S8x64x32x32x16] S8x64x32x32x32 4
  bcast_S64_S1x1x1x1x64_4 : S64.BroadcastsInDim S1x1x1x1x64 (![4] : Fin 1 → Fin S1x1x1x1x64.rank)
  bcast_S1x1x1x1x64_S8x64x32x32x64_0_1_2_3_4 : S1x1x1x1x64.BroadcastsInDim S8x64x32x32x64 (![0, 1, 2, 3, 4] : Fin 5 → Fin S8x64x32x32x64.rank)
  bcast_S_S8x64x32x32x64 : S_.BroadcastsInDim S8x64x32x32x64 (![] : Fin 0 → Fin S8x64x32x32x64.rank)
  bcast_S8_S1x1x1x1x8_4 : S8.BroadcastsInDim S1x1x1x1x8 (![4] : Fin 1 → Fin S1x1x1x1x8.rank)
  bcast_S1x1x1x1x8_S8x64x32x32x8_0_1_2_3_4 : S1x1x1x1x8.BroadcastsInDim S8x64x32x32x8 (![0, 1, 2, 3, 4] : Fin 5 → Fin S8x64x32x32x8.rank)
  bcast_S_S8x64x32x32x8 : S_.BroadcastsInDim S8x64x32x32x8 (![] : Fin 0 → Fin S8x64x32x32x8.rank)
  dot_S8x64x32x32x32_S32x64_S8x64x32x32x64_4_0_0123_1_n_n_wf : DotDims.WF S8x64x32x32x32 S32x64 S8x64x32x32x64 [4] [0] [0, 1, 2, 3] [1] [] []
  dot_S8x64x32x32x64_S64x64_S8x64x32x32x64_4_0_0123_1_n_n_wf : DotDims.WF S8x64x32x32x64 S64x64 S8x64x32x32x64 [4] [0] [0, 1, 2, 3] [1] [] []
  dot_S8x64x32x32x64_S64x8_S8x64x32x32x8_4_0_0123_1_n_n_wf : DotDims.WF S8x64x32x32x64 S64x8 S8x64x32x32x8 [4] [0] [0, 1, 2, 3] [1] [] []

variable [Facts₀]

def dot_S8x64x32x32x32_S32x64_S8x64x32x32x64_4_0_0123_1_n_n : DotDims S8x64x32x32x32 S32x64 S8x64x32x32x64 where
  lhsContracting := [4]
  rhsContracting := [0]
  lhsNonContracting := [0, 1, 2, 3]
  rhsNonContracting := [1]
  lhsBatch := []
  rhsBatch := []
  wf := dot_S8x64x32x32x32_S32x64_S8x64x32x32x64_4_0_0123_1_n_n_wf
def dot_S8x64x32x32x64_S64x64_S8x64x32x32x64_4_0_0123_1_n_n : DotDims S8x64x32x32x64 S64x64 S8x64x32x32x64 where
  lhsContracting := [4]
  rhsContracting := [0]
  lhsNonContracting := [0, 1, 2, 3]
  rhsNonContracting := [1]
  lhsBatch := []
  rhsBatch := []
  wf := dot_S8x64x32x32x64_S64x64_S8x64x32x32x64_4_0_0123_1_n_n_wf
def dot_S8x64x32x32x64_S64x8_S8x64x32x32x8_4_0_0123_1_n_n : DotDims S8x64x32x32x64 S64x8 S8x64x32x32x8 where
  lhsContracting := [4]
  rhsContracting := [0]
  lhsNonContracting := [0, 1, 2, 3]
  rhsNonContracting := [1]
  lhsBatch := []
  rhsBatch := []
  wf := dot_S8x64x32x32x64_S64x8_S8x64x32x32x8_4_0_0123_1_n_n_wf

class Facts : Prop extends Facts₀ where

variable [Facts]
-- ==== Proof.PairMlp.lean ====
/-
  The function both programs compute, element by element, on the extended reals.

  For a batch entry (b, l) and a pair of agents (p, q) the input row has 32 numbers: agent p's 16 state
  numbers followed by agent q's 16.  The row goes through three dense layers, each "row times weight matrix,
  plus bias"; the first two are followed by the positive part (the larger of the value and zero), the third by
  the logistic function 1 / (1 + e^(-v)).  Entry (b, l, p, q, o) of the result is output o of that network on
  that row.  No law of arithmetic is used to get from one program to the other: both add the same products
  in one sum per output, so nothing here depends on the inputs being finite.
-/
import Idealize.ShloMosaic.Lib.ValueIdx
import Idealize.ShloMosaic.PureOps.Ideal.Laws

noncomputable section

open scoped BigOperators

namespace Cert.PairMlp

open Idealize.ShloMosaic Idealize.ShloMosaic.ValueIdx

/-- The zero the positive part compares with, spelt as the single-precision word both programs print. -/
abbrev zero : EReal := Ideal.ofBits .f32 0x00000000#32

/-- One dense layer applied to a row: output `o` is the sum over `i` of `x i * W (i, o)`, plus `b o`. -/
def dense {n k : ℕ} (W : (⟨2, ![n, k]⟩ : Shape).Idx → EReal) (b : (⟨1, ![k]⟩ : Shape).Idx → EReal)
    (x : Fin n → EReal) : Fin k → EReal :=
  fun o => (∑ i : Fin n, x i * W (ix2 i o)) + b (ix1 o)

/-- The positive part of a row, entry by entry. -/
def relu {k : ℕ} (x : Fin k → EReal) : Fin k → EReal := fun o => max (x o) zero

/-- The three-layer network on one row of 32 numbers: 32 → 64 → 64 → 8, logistic at the end. -/
def mlp (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 8]⟩ : Shape).Idx → EReal) (b3 : (⟨1, ![8]⟩ : Shape).Idx → EReal)
    (x : Fin 32 → EReal) : Fin 8 → EReal :=
  fun o => Ideal.logistic (dense W3 b3 (relu (dense W2 b2 (relu (dense W1 b1 x)))) o)

/-- Two agents' state rows laid end to end: the first 16 entries are `sp`, the last 16 are `sq`. -/
def pairRow (sp sq : Fin 16 → EReal) : Fin 32 → EReal :=
  fun d => if h : d.val < 16 then sp ⟨d.val, h⟩ else sq ⟨d.val - 16, by have := d.isLt; omega⟩

/-- The whole result over the states as given, [8, 64, 32, 16]: entry (b, l, p, q, o). -/
def G (st : (⟨4, ![8, 64, 32, 16]⟩ : Shape).Idx → EReal)
    (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 8]⟩ : Shape).Idx → EReal) (b3 : (⟨1, ![8]⟩ : Shape).Idx → EReal) :
    (⟨5, ![8, 64, 32, 32, 8]⟩ : Shape).Idx → EReal :=
  fun i => mlp W1 b1 W2 b2 W3 b3
    (pairRow (fun d => st (ix4 (i 0) (i 1) (i 2) d)) (fun d => st (ix4 (i 0) (i 1) (i 3) d))) (i 4)

/-- The same with the two batch axes merged into one of 512: entry (n, p, q, o) over states [512, 32, 16]. -/
def Gflat (sf : (⟨3, ![512, 32, 16]⟩ : Shape).Idx → EReal)
    (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 8]⟩ : Shape).Idx → EReal) (b3 : (⟨1, ![8]⟩ : Shape).Idx → EReal) :
    (⟨4, ![512, 32, 32, 8]⟩ : Shape).Idx → EReal :=
  fun i => mlp W1 b1 W2 b2 W3 b3
    (pairRow (fun d => sf (ix3 (i 0) (i 1) d)) (fun d => sf (ix3 (i 0) (i 2) d))) (i 3)

/-- The word for one denotes the number one. -/
theorem ofBits_one : Ideal.ofBits .f32 0x3F800000#32 = (1 : EReal) := by
  simp [Ideal.ofBits, Ideal.ieee, -EReal.coe_mul]
  norm_num

/-- The logistic function written out with the word for one, as a host program spells it. -/
theorem logistic_spelt (v : EReal) :
    Ideal.div (Ideal.ofBits .f32 0x3F800000#32) (Ideal.ofBits .f32 0x3F800000#32 + Ideal.exp (-v)) = Ideal.logistic v := by
  rw [ofBits_one]; rfl

end Cert.PairMlp

end
-- ==== Proof.RefValue.lean ====
/-
  The reference program computes the network of `Cert.PairMlp` entry by entry.

  Its steps, read at one entry (b, l, p, q, o): the two broadcasts of the states put agent p's row and agent
  q's row side by side; joined along the last axis they are the 32-entry input row; each contraction with a
  weight matrix is the sum over the shared axis of "row entry times matrix entry"; the bias is added by its last
  coordinate; the maximum with zero is the positive part; and the closing quotient 1 / (1 + e^(-v)) is the
  logistic function.
-/
import proofs.«117040_j45938970198104_1_alg».proof.Proof.Gen.ReferenceIdeal.Read
import proofs.«117040_j45938970198104_1_alg».proof.Proof.PairMlp

noncomputable section

open scoped BigOperators

namespace Cert.ReferenceIdeal.RefValue

open Cert.ReferenceIdeal Cert.ReferenceIdeal.Gen Cert.ReferenceIdeal.Read
open Idealize.ShloMosaic Idealize.ShloMosaic.ValueIdx Cert.PairMlp

/-- The joined array at (b, l, p, q, d): agent p's state entry d when d < 16, agent q's entry d - 16 otherwise. -/
theorem joined_apply (x0 : (⟨S8x64x32x16, .f32⟩ : BufTy).Contents (Elt Ideal)) (i : S8x64x32x32x32.Idx) :
    val_main_v4 (F := Ideal) x0 i
      = pairRow (fun d => x0 (ix4 (i 0) (i 1) (i 2) d)) (fun d => x0 (ix4 (i 0) (i 1) (i 3) d)) (i 4) := by
  unfold pairRow val_main_v4
  by_cases h : (i 4).val < 16
  · rw [dif_pos h]
    rw [concatenate_pair_apply_left (s₁ := S8x64x32x32x16) (s₂ := S8x64x32x32x16) (4 : Fin S8x64x32x32x32.rank) _ _ _ i rfl
      (ix5 (i 0) (i 1) (i 2) (i 3) (⟨(i 4).val, h⟩ : Fin 16))
      (fun b => match b with
        | ⟨0, _⟩ => rfl | ⟨1, _⟩ => rfl | ⟨2, _⟩ => rfl | ⟨3, _⟩ => rfl | ⟨4, _⟩ => rfl)]
    rw [val_main_v1_apply, val_main_v0_apply]
    exact congrArg x0 (funext fun a => match a with
      | ⟨0, _⟩ => rfl | ⟨1, _⟩ => rfl | ⟨2, _⟩ => rfl | ⟨3, _⟩ => rfl)
  · rw [dif_neg h]
    have hlt : (i 4).val < 32 := (i 4).isLt
    rw [concatenate_pair_apply_right (s₁ := S8x64x32x32x16) (s₂ := S8x64x32x32x16) (4 : Fin S8x64x32x32x32.rank) _ _ _ i rfl rfl
      (ix5 (i 0) (i 1) (i 2) (i 3) (⟨(i 4).val - 16, by omega⟩ : Fin 16))
      (fun b => match b with
        | ⟨0, _⟩ => fun _ => rfl | ⟨1, _⟩ => fun _ => rfl | ⟨2, _⟩ => fun _ => rfl | ⟨3, _⟩ => fun _ => rfl
        | ⟨4, _⟩ => fun hne => absurd rfl hne)
      (by show (i 4).val - 16 + 16 = (i 4).val; omega)]
    rw [val_main_v3_apply, val_main_v2_apply]
    exact congrArg x0 (funext fun a => match a with
      | ⟨0, _⟩ => rfl | ⟨1, _⟩ => rfl | ⟨2, _⟩ => rfl | ⟨3, _⟩ => rfl)

/-- The reference's result is the network's output, entry by entry. -/
theorem result_eq (x0 : (⟨S8x64x32x16, .f32⟩ : BufTy).Contents (Elt Ideal)) (x1 : (⟨S32x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x8, .f32⟩ : BufTy).Contents (Elt Ideal))
    (x6 : (⟨S8, .f32⟩ : BufTy).Contents (Elt Ideal)) :
    val_main_v24 (F := Ideal) x0 x1 x2 x3 x4 x5 x6 = G x0 x1 x2 x3 x4 x5 x6 := by
  funext i
  rw [val_main_v24_apply, val_main_v23_apply, val_main_cst_0_apply, val_main_v22_apply, val_main_v21_apply,
    val_main_cst_apply, val_main_v20_apply, val_main_v19_apply, val_main_v18_apply, val_main_v15_apply,
    val_main_v17_apply, val_main_v16_apply]
  simp only [val_main_v14_apply, val_main_v13_apply, val_main_v10_apply, val_main_v12_apply, val_main_v11_apply,
    val_main_call1_v0_apply, val_main_call1_cst_apply, val_main_v9_apply, val_main_v8_apply, val_main_v5_apply,
    val_main_v7_apply, val_main_v6_apply, val_main_call0_v0_apply, val_main_call0_cst_apply, joined_apply]
  -- the weights and biases are read at the entry the contraction and the broadcast name
  have e5 : ∀ (j : S8x64x32x32x64.Idx) (d : Fin 32), ridx_main_v5 j d = ix2 d (j 4) :=
    fun j d => funext fun a => match a with | ⟨0, _⟩ => rfl | ⟨1, _⟩ => rfl
  have e10 : ∀ (j : S8x64x32x32x64.Idx) (k : Fin 64), ridx_main_v10 j k = ix2 k (j 4) :=
    fun j k => funext fun a => match a with | ⟨0, _⟩ => rfl | ⟨1, _⟩ => rfl
  have e15 : ∀ (j : S8x64x32x32x8.Idx) (k : Fin 64), ridx_main_v15 j k = ix2 k (j 4) :=
    fun j k => funext fun a => match a with | ⟨0, _⟩ => rfl | ⟨1, _⟩ => rfl
  have e6 : ∀ j : S8x64x32x32x64.Idx, idx_main_v6 (idx_main_v7 j) = ix1 (j 4) :=
    fun j => funext fun a => match a with | ⟨0, _⟩ => rfl
  have e11 : ∀ j : S8x64x32x32x64.Idx, idx_main_v11 (idx_main_v12 j) = ix1 (j 4) :=
    fun j => funext fun a => match a with | ⟨0, _⟩ => rfl
  have e16 : ∀ j : S8x64x32x32x8.Idx, idx_main_v16 (idx_main_v17 j) = ix1 (j 4) :=
    fun j => funext fun a => match a with | ⟨0, _⟩ => rfl
  simp only [e5, e10, e15, e6, e11, e16, Ideal.hostDivf_def, Ideal.addf_def, Ideal.hostUnary_exp_def,
    Ideal.hostNegf_def, Ideal.negf_def, Ideal.maximumf_def, Ideal.ofBits_def]
  rw [logistic_spelt]
  rfl

end Cert.ReferenceIdeal.RefValue

end
-- ==== Proof.KernelRow.lean ====
/-
  What the kernel's body computes from its loaded blocks, read at one entry.

  The body holds 8 batch entries at a time.  It lays agent p's and agent q's state rows side by side for every
  pair (p, q), flattens the 8 × 32 × 32 pairs into 8192 rows of 32 numbers, and runs the three dense layers as three
  matrix products on those rows; the narrowing of the operands to a shorter float format changes no value over the
  extended reals, and a product into a zero accumulator is the plain sum over the shared axis.  Row
  t · 1024 + p · 32 + q of the flattened array is pair (p, q) of batch entry t, so entry (t, p, q, o) of the body's
  result is output o of the network of `Cert.PairMlp` on that pair's row.
-/
import proofs.«117040_j45938970198104_1_alg».proof.Proof.Gen.KernelIdeal.Skeleton
import proofs.«117040_j45938970198104_1_alg».proof.Proof.PairMlp
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.RowValue

open Cert.KernelIdeal Cert.KernelIdeal.Gen
open Idealize.ShloMosaic Idealize.ShloMosaic.ValueIdx Cert.PairMlp

/-! ### The contraction of layer 1: operand indices, axis by axis -/

theorem lhs1_0 (i : S8192x64.Idx) (q : dot_S8192x32_S32x64_S8192x64_1_0_0_1_n_n.contr.Idx) :
    (dot_S8192x32_S32x64_S8192x64_1_0_0_1_n_n.lhsIdx i q 0).val = (i 0).val := by
  unfold DotDims.lhsIdx
  rw [dif_neg (show ¬(0 : Fin S8192x32.rank) ∈ dot_S8192x32_S32x64_S8192x64_1_0_0_1_n_n.lhsBatch by decide), dif_pos (show (0 : Fin S8192x32.rank) ∈ dot_S8192x32_S32x64_S8192x64_1_0_0_1_n_n.lhsNonContracting by decide)]
  rfl
theorem lhs1_1 (i : S8192x64.Idx) (q : dot_S8192x32_S32x64_S8192x64_1_0_0_1_n_n.contr.Idx) :
    (dot_S8192x32_S32x64_S8192x64_1_0_0_1_n_n.lhsIdx i q 1).val = (q ⟨0, by decide⟩).val :=
  dot_S8192x32_S32x64_S8192x64_1_0_0_1_n_n.lhsIdx_val_of_single rfl i q
theorem rhs1_0 (i : S8192x64.Idx) (q : dot_S8192x32_S32x64_S8192x64_1_0_0_1_n_n.contr.Idx) :
    (dot_S8192x32_S32x64_S8192x64_1_0_0_1_n_n.rhsIdx i q 0).val = (q ⟨0, by decide⟩).val :=
  dot_S8192x32_S32x64_S8192x64_1_0_0_1_n_n.rhsIdx_val_of_single rfl i q
theorem rhs1_1 (i : S8192x64.Idx) (q : dot_S8192x32_S32x64_S8192x64_1_0_0_1_n_n.contr.Idx) :
    (dot_S8192x32_S32x64_S8192x64_1_0_0_1_n_n.rhsIdx i q 1).val = (i 1).val := by
  unfold DotDims.rhsIdx
  rw [dif_neg (show ¬(1 : Fin S32x64.rank) ∈ dot_S8192x32_S32x64_S8192x64_1_0_0_1_n_n.rhsBatch by decide), dif_pos (show (1 : Fin S32x64.rank) ∈ dot_S8192x32_S32x64_S8192x64_1_0_0_1_n_n.rhsNonContracting by decide)]
  rfl

/-- Layer 1's matrix product into a zero accumulator, at row `r` and column `o`: the sum over the shared axis. -/
theorem mm1_apply (X : FVec Ideal S8192x32 .bf16) (W : FVec Ideal S32x64 .bf16) (r : Fin 8192) (o : Fin 64) :
    matmul dot_S8192x32_S32x64_S8192x64_1_0_0_1_n_n none X W (constant S8192x64 .f32 0x00000000#32) (ix2 r o)
      = ∑ k : Fin 32, X (ix2 r k) * W (ix2 k o) := by
  simp only [matmul]
  rw [Ideal.matmul_constant_zero_apply, ← Equiv.sum_comp (contrEquiv1 dot_S8192x32_S32x64_S8192x64_1_0_0_1_n_n 32 rfl rfl).symm]
  refine Finset.sum_congr rfl fun k _ => ?_
  have hk := contrEquiv1_symm_val dot_S8192x32_S32x64_S8192x64_1_0_0_1_n_n 32 rfl rfl k
  have el : dot_S8192x32_S32x64_S8192x64_1_0_0_1_n_n.lhsIdx (ix2 r o) ((contrEquiv1 dot_S8192x32_S32x64_S8192x64_1_0_0_1_n_n 32 rfl rfl).symm k) = ix2 r k := funext fun a => Fin.ext (by
    match a with
    | ⟨0, _⟩ => exact lhs1_0 _ _
    | ⟨1, _⟩ => exact (lhs1_1 _ _).trans hk)
  have er : dot_S8192x32_S32x64_S8192x64_1_0_0_1_n_n.rhsIdx (ix2 r o) ((contrEquiv1 dot_S8192x32_S32x64_S8192x64_1_0_0_1_n_n 32 rfl rfl).symm k) = ix2 k o := funext fun a => Fin.ext (by
    match a with
    | ⟨0, _⟩ => exact (rhs1_0 _ _).trans hk
    | ⟨1, _⟩ => exact rhs1_1 _ _)
  rw [el, er]

/-- Layer 1 on row `r`: product with the weights plus the bias, the bias read by its column. -/
theorem layer1_apply (X : FVec Ideal S8192x32 .bf16) (W : FVec Ideal S32x64 .f32) (b : FVec Ideal S64 .f32)
    (hW : FTy.bf16.bits < FTy.f32.bits) (hc : S64.ShapeCasts S1x64) (hb : S1x64.Broadcasts S8192x64) (r : Fin 8192) (o : Fin 64) :
    addf (matmul dot_S8192x32_S32x64_S8192x64_1_0_0_1_n_n none X (truncf .bf16 W hW) (constant S8192x64 .f32 0x00000000#32))
        (broadcastTo S8192x64 (shapeCast S1x64 b hc) hb) (ix2 r o)
      = dense W b (fun i => X (ix2 r i)) o := by
  rw [addf_apply, mm1_apply, broadcastTo_1b_ab_apply, shapeCast_a_1a_apply]
  rfl

/-! ### The contraction of layer 2: operand indices, axis by axis -/

theorem lhs2_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs2_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs2_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs2_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- Layer 2's matrix product into a zero accumulator, at row `r` and column `o`: the sum over the shared axis. -/
theorem mm2_apply (X : FVec Ideal S8192x64 .bf16) (W : FVec Ideal S64x64 .bf16) (r : Fin 8192) (o : Fin 64) :
    matmul dot_S8192x64_S64x64_S8192x64_1_0_0_1_n_n none X W (constant S8192x64 .f32 0x00000000#32) (ix2 r o)
      = ∑ k : Fin 64, X (ix2 r k) * W (ix2 k o) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 r o) ((contrEquiv1 dot_S8192x64_S64x64_S8192x64_1_0_0_1_n_n 64 rfl rfl).symm k) = ix2 r k := funext fun a => Fin.ext (by
    match a with
    | ⟨0, _⟩ => exact lhs2_0 _ _
    | ⟨1, _⟩ => exact (lhs2_1 _ _).trans hk)
  have er : dot_S8192x64_S64x64_S8192x64_1_0_0_1_n_n.rhsIdx (ix2 r o) ((contrEquiv1 dot_S8192x64_S64x64_S8192x64_1_0_0_1_n_n 64 rfl rfl).symm k) = ix2 k o := funext fun a => Fin.ext (by
    match a with
    | ⟨0, _⟩ => exact (rhs2_0 _ _).trans hk
    | ⟨1, _⟩ => exact rhs2_1 _ _)
  rw [el, er]

/-- Layer 2 on row `r`: product with the weights plus the bias, the bias read by its column. -/
theorem layer2_apply (X : FVec Ideal S8192x64 .bf16) (W : FVec Ideal S64x64 .f32) (b : FVec Ideal S64 .f32)
    (hW : FTy.bf16.bits < FTy.f32.bits) (hc : S64.ShapeCasts S1x64) (hb : S1x64.Broadcasts S8192x64) (r : Fin 8192) (o : Fin 64) :
    addf (matmul dot_S8192x64_S64x64_S8192x64_1_0_0_1_n_n none X (truncf .bf16 W hW) (constant S8192x64 .f32 0x00000000#32))
        (broadcastTo S8192x64 (shapeCast S1x64 b hc) hb) (ix2 r o)
      = dense W b (fun i => X (ix2 r i)) o := by
  rw [addf_apply, mm2_apply, broadcastTo_1b_ab_apply, shapeCast_a_1a_apply]
  rfl

/-! ### The contraction of layer 3: operand indices, axis by axis -/

theorem lhs3_0 (i : S8192x8.Idx) (q : dot_S8192x64_S64x8_S8192x8_1_0_0_1_n_n.contr.Idx) :
    (dot_S8192x64_S64x8_S8192x8_1_0_0_1_n_n.lhsIdx i q 0).val = (i 0).val := by
  unfold DotDims.lhsIdx
  rw [dif_neg (show ¬(0 : Fin S8192x64.rank) ∈ dot_S8192x64_S64x8_S8192x8_1_0_0_1_n_n.lhsBatch by decide), dif_pos (show (0 : Fin S8192x64.rank) ∈ dot_S8192x64_S64x8_S8192x8_1_0_0_1_n_n.lhsNonContracting by decide)]
  rfl
theorem lhs3_1 (i : S8192x8.Idx) (q : dot_S8192x64_S64x8_S8192x8_1_0_0_1_n_n.contr.Idx) :
    (dot_S8192x64_S64x8_S8192x8_1_0_0_1_n_n.lhsIdx i q 1).val = (q ⟨0, by decide⟩).val :=
  dot_S8192x64_S64x8_S8192x8_1_0_0_1_n_n.lhsIdx_val_of_single rfl i q
theorem rhs3_0 (i : S8192x8.Idx) (q : dot_S8192x64_S64x8_S8192x8_1_0_0_1_n_n.contr.Idx) :
    (dot_S8192x64_S64x8_S8192x8_1_0_0_1_n_n.rhsIdx i q 0).val = (q ⟨0, by decide⟩).val :=
  dot_S8192x64_S64x8_S8192x8_1_0_0_1_n_n.rhsIdx_val_of_single rfl i q
theorem rhs3_1 (i : S8192x8.Idx) (q : dot_S8192x64_S64x8_S8192x8_1_0_0_1_n_n.contr.Idx) :
    (dot_S8192x64_S64x8_S8192x8_1_0_0_1_n_n.rhsIdx i q 1).val = (i 1).val := by
  unfold DotDims.rhsIdx
  rw [dif_neg (show ¬(1 : Fin S64x8.rank) ∈ dot_S8192x64_S64x8_S8192x8_1_0_0_1_n_n.rhsBatch by decide), dif_pos (show (1 : Fin S64x8.rank) ∈ dot_S8192x64_S64x8_S8192x8_1_0_0_1_n_n.rhsNonContracting by decide)]
  rfl

/-- Layer 3's matrix product into a zero accumulator, at row `r` and column `o`: the sum over the shared axis. -/
theorem mm3_apply (X : FVec Ideal S8192x64 .bf16) (W : FVec Ideal S64x8 .bf16) (r : Fin 8192) (o : Fin 8) :
    matmul dot_S8192x64_S64x8_S8192x8_1_0_0_1_n_n none X W (constant S8192x8 .f32 0x00000000#32) (ix2 r o)
      = ∑ k : Fin 64, X (ix2 r k) * W (ix2 k o) := by
  simp only [matmul]
  rw [Ideal.matmul_constant_zero_apply, ← Equiv.sum_comp (contrEquiv1 dot_S8192x64_S64x8_S8192x8_1_0_0_1_n_n 64 rfl rfl).symm]
  refine Finset.sum_congr rfl fun k _ => ?_
  have hk := contrEquiv1_symm_val dot_S8192x64_S64x8_S8192x8_1_0_0_1_n_n 64 rfl rfl k
  have el : dot_S8192x64_S64x8_S8192x8_1_0_0_1_n_n.lhsIdx (ix2 r o) ((contrEquiv1 dot_S8192x64_S64x8_S8192x8_1_0_0_1_n_n 64 rfl rfl).symm k) = ix2 r k := funext fun a => Fin.ext (by
    match a with
    | ⟨0, _⟩ => exact lhs3_0 _ _
    | ⟨1, _⟩ => exact (lhs3_1 _ _).trans hk)
  have er : dot_S8192x64_S64x8_S8192x8_1_0_0_1_n_n.rhsIdx (ix2 r o) ((contrEquiv1 dot_S8192x64_S64x8_S8192x8_1_0_0_1_n_n 64 rfl rfl).symm k) = ix2 k o := funext fun a => Fin.ext (by
    match a with
    | ⟨0, _⟩ => exact (rhs3_0 _ _).trans hk
    | ⟨1, _⟩ => exact rhs3_1 _ _)
  rw [el, er]

/-- Layer 3 on row `r`: product with the weights plus the bias, the bias read by its column. -/
theorem layer3_apply (X : FVec Ideal S8192x64 .bf16) (W : FVec Ideal S64x8 .f32) (b : FVec Ideal S8 .f32)
    (hW : FTy.bf16.bits < FTy.f32.bits) (hc : S8.ShapeCasts S1x8) (hb : S1x8.Broadcasts S8192x8) (r : Fin 8192) (o : Fin 8) :
    addf (matmul dot_S8192x64_S64x8_S8192x8_1_0_0_1_n_n none X (truncf .bf16 W hW) (constant S8192x8 .f32 0x00000000#32))
        (broadcastTo S8192x8 (shapeCast S1x8 b hc) hb) (ix2 r o)
      = dense W b (fun i => X (ix2 r i)) o := by
  rw [addf_apply, mm3_apply, broadcastTo_1b_ab_apply, shapeCast_a_1a_apply]
  rfl

/-! ### The body's intermediate values, named -/

/-- The 8192 input rows: the pairs' state rows laid side by side, then flattened. -/
def rows (v0 : Vec Ideal S8x32x16 .f32) : FVec Ideal S8192x32 .f32 :=
  shapeCast S8192x32
    (concatenate S8x32x32x32 3
      [⟨S8x32x32x16, broadcastTo S8x32x32x16 (shapeCast S8x32x1x16 (shapeCast S8x32x1x16 (shapeCast S8x32x16 v0 shapeCasts_S8x32x16_S8x32x16) shapeCasts_S8x32x16_S8x32x1x16) shapeCasts_S8x32x1x16_S8x32x1x16) broadcasts_S8x32x1x16_S8x32x32x16⟩,
       ⟨S8x32x32x16, broadcastTo S8x32x32x16 (shapeCast S8x1x32x16 (shapeCast S8x1x32x16 (shapeCast S8x32x16 v0 shapeCasts_S8x32x16_S8x32x16) shapeCasts_S8x32x16_S8x1x32x16) shapeCasts_S8x1x32x16_S8x1x32x16) broadcasts_S8x1x32x16_S8x32x32x16⟩]
      concatenates_S8x32x32x16_S8x32x32x16_S8x32x32x32_d3)
    shapeCasts_S8x32x32x32_S8192x32

/-- The three layers on all 8192 rows at once. -/
def net (X : FVec Ideal S8192x32 .f32) (v11 : Vec Ideal S32x64 .f32) (v14 : Vec Ideal S64 .f32) (v21 : Vec Ideal S64x64 .f32)
    (v24 : Vec Ideal S64 .f32) (v31 : Vec Ideal S64x8 .f32) (v34 : Vec Ideal S8 .f32) : FVec Ideal S8192x8 .f32 :=
  logistic
    (addf
      (matmul dot_S8192x64_S64x8_S8192x8_1_0_0_1_n_n none
        (truncf .bf16
          (maximumf
            (addf
              (matmul dot_S8192x64_S64x64_S8192x64_1_0_0_1_n_n none
                (truncf .bf16
                  (maximumf
                    (addf
                      (matmul dot_S8192x32_S32x64_S8192x64_1_0_0_1_n_n none (truncf .bf16 X bitsLt_bf16_f32) (truncf .bf16 v11 bitsLt_bf16_f32)
                        (constant S8192x64 .f32 0x00000000#32))
                      (broadcastTo S8192x64 (shapeCast S1x64 v14 shapeCasts_S64_S1x64) broadcasts_S1x64_S8192x64))
                    (broadcast S8192x64 (Scalar.ofBits .f32 0x00000000#32)))
                  bitsLt_bf16_f32)
                (truncf .bf16 v21 bitsLt_bf16_f32) (constant S8192x64 .f32 0x00000000#32))
              (broadcastTo S8192x64 (shapeCast S1x64 v24 shapeCasts_S64_S1x64) broadcasts_S1x64_S8192x64))
            (broadcast S8192x64 (Scalar.ofBits .f32 0x00000000#32)))
          bitsLt_bf16_f32)
        (truncf .bf16 v31 bitsLt_bf16_f32) (constant S8192x8 .f32 0x00000000#32))
      (broadcastTo S8192x8 (shapeCast S1x8 v34 shapeCasts_S8_S1x8) broadcasts_S1x8_S8192x8))

/-- The body's one stored value is the network on the rows, folded back to (8, 32, 32, 8). -/
theorem pay_eq (v0 : Vec Ideal S8x32x16 .f32) (v11 : Vec Ideal S32x64 .f32) (v14 : Vec Ideal S64 .f32) (v21 : Vec Ideal S64x64 .f32)
    (v24 : Vec Ideal S64 .f32) (v31 : Vec Ideal S64x8 .f32) (v34 : Vec Ideal S8 .f32) :
    k0_pay1 (F := Ideal) v0 v11 v14 v21 v24 v31 v34
      = shapeCast S8x32x32x8 (net (rows v0) v11 v14 v21 v24 v31 v34) shapeCasts_S8192x8_S8x32x32x8 := rfl

/-- The three layers at row `r`, output `o`: the network on that row. -/
theorem net_apply (X : FVec Ideal S8192x32 .f32) (v11 : Vec Ideal S32x64 .f32) (v14 : Vec Ideal S64 .f32) (v21 : Vec Ideal S64x64 .f32)
    (v24 : Vec Ideal S64 .f32) (v31 : Vec Ideal S64x8 .f32) (v34 : Vec Ideal S8 .f32) (r : Fin 8192) (o : Fin 8) :
    net X v11 v14 v21 v24 v31 v34 (ix2 r o) = mlp v11 v14 v21 v24 v31 v34 (fun d => X (ix2 r d)) o := by
  unfold net mlp
  show Ideal.logistic ((addf _ _ : FVec Ideal S8192x8 .f32) (ix2 r o)) = _
  rw [layer3_apply]
  refine congrArg (fun x => Ideal.logistic (dense v31 v34 x o)) ?_
  funext j
  show max ((addf _ _ : FVec Ideal S8192x64 .f32) (ix2 r j)) zero = max _ zero
  rw [layer2_apply]
  refine congrArg (fun x => max (dense v21 v24 x j) zero) ?_
  funext k
  show max ((addf _ _ : FVec Ideal S8192x64 .f32) (ix2 r k)) zero = max _ zero
  rw [layer1_apply]
  rfl

/-! ### The rows: which pair a flattened row is -/

/-- Row `t · 1024 + p · 32 + q` of the flattened input is pair (p, q) of batch entry t: agent p's state row then agent q's. -/
theorem rows_apply (v0 : Vec Ideal S8x32x16 .f32) (t : Fin 8) (p q : Fin 32) (r : Fin 8192)
    (hr : r.val = t.val * 1024 + p.val * 32 + q.val) (d : Fin 32) :
    rows v0 (ix2 r d) = pairRow (fun e => v0 (ix3 t p e)) (fun e => v0 (ix3 t q e)) d := by
  unfold rows
  rw [shapeCast_apply _ shapeCasts_S8x32x32x32_S8192x32 (ix2 r d) (ix4 t p q d) (by
    rw [Shape.rowMajor_val_four, Shape.rowMajor_val_two]
    show ((t.val * 32 + p.val) * 32 + q.val) * 32 + d.val = r.val * 32 + d.val
    omega)]
  unfold pairRow
  by_cases h : d.val < 16
  · rw [dif_pos h]
    rw [concatenate_pair_apply_left (s₁ := S8x32x32x16) (s₂ := S8x32x32x16) (3 : Fin S8x32x32x32.rank) _ _ _ (ix4 t p q d) rfl
      (ix4 t p q (⟨d.val, h⟩ : Fin 16))
      (fun b => match b with | ⟨0, _⟩ => rfl | ⟨1, _⟩ => rfl | ⟨2, _⟩ => rfl | ⟨3, _⟩ => rfl)]
    rw [broadcastTo_apply _ broadcasts_S8x32x1x16_S8x32x32x16 (ix4 t p q (⟨d.val, h⟩ : Fin 16)) (ix4 t p (0 : Fin 1) (⟨d.val, h⟩ : Fin 16))
      (fun a => match a with
        | ⟨0, _⟩ => by show t.val = if (8 : Nat) = 1 then 0 else t.val; rw [if_neg (by decide)]
        | ⟨1, _⟩ => by show p.val = if (32 : Nat) = 1 then 0 else p.val; rw [if_neg (by decide)]
        | ⟨2, _⟩ => by show 0 = if (1 : Nat) = 1 then 0 else q.val; rw [if_pos rfl]
        | ⟨3, _⟩ => by show d.val = if (16 : Nat) = 1 then 0 else d.val; rw [if_neg (by decide)])]
    simp only [shapeCast_self]
    exact shapeCast_apply _ shapeCasts_S8x32x16_S8x32x1x16 (ix4 t p (0 : Fin 1) (⟨d.val, h⟩ : Fin 16)) (ix3 t p (⟨d.val, h⟩ : Fin 16)) (by
      rw [Shape.rowMajor_val_three, Shape.rowMajor_val_four]
      show (t.val * 32 + p.val) * 16 + d.val = ((t.val * 32 + p.val) * 1 + 0) * 16 + d.val
      omega)
  · rw [dif_neg h]
    have hlt : d.val < 32 := d.isLt
    rw [concatenate_pair_apply_right (s₁ := S8x32x32x16) (s₂ := S8x32x32x16) (3 : Fin S8x32x32x32.rank) _ _ _ (ix4 t p q d) rfl rfl
      (ix4 t p q (⟨d.val - 16, by omega⟩ : Fin 16))
      (fun b => match b with
        | ⟨0, _⟩ => fun _ => rfl | ⟨1, _⟩ => fun _ => rfl | ⟨2, _⟩ => fun _ => rfl
        | ⟨3, _⟩ => fun hne => absurd rfl hne)
      (by show d.val - 16 + 16 = d.val; omega)]
    rw [broadcastTo_apply _ broadcasts_S8x1x32x16_S8x32x32x16 (ix4 t p q (⟨d.val - 16, by omega⟩ : Fin 16)) (ix4 t (0 : Fin 1) q (⟨d.val - 16, by omega⟩ : Fin 16))
      (fun a => match a with
        | ⟨0, _⟩ => by show t.val = if (8 : Nat) = 1 then 0 else t.val; rw [if_neg (by decide)]
        | ⟨1, _⟩ => by show 0 = if (1 : Nat) = 1 then 0 else p.val; rw [if_pos rfl]
        | ⟨2, _⟩ => by show q.val = if (32 : Nat) = 1 then 0 else q.val; rw [if_neg (by decide)]
        | ⟨3, _⟩ => by show d.val - 16 = if (16 : Nat) = 1 then 0 else d.val - 16; rw [if_neg (by decide)])]
    simp only [shapeCast_self]
    exact shapeCast_apply _ shapeCasts_S8x32x16_S8x1x32x16 (ix4 t (0 : Fin 1) q (⟨d.val - 16, by omega⟩ : Fin 16)) (ix3 t q (⟨d.val - 16, by omega⟩ : Fin 16)) (by
      rw [Shape.rowMajor_val_three, Shape.rowMajor_val_four]
      show (t.val * 32 + q.val) * 16 + (d.val - 16) = ((t.val * 1 + 0) * 32 + q.val) * 16 + (d.val - 16)
      omega)

/-- THE BODY'S RESULT AT AN ENTRY: entry (t, p, q, o) is output o of the network on pair (p, q) of batch entry t. -/
theorem pay_apply (v0 : Vec Ideal S8x32x16 .f32) (v11 : Vec Ideal S32x64 .f32) (v14 : Vec Ideal S64 .f32) (v21 : Vec Ideal S64x64 .f32)
    (v24 : Vec Ideal S64 .f32) (v31 : Vec Ideal S64x8 .f32) (v34 : Vec Ideal S8 .f32) (t : Fin 8) (p q : Fin 32) (o : Fin 8) :
    k0_pay1 (F := Ideal) v0 v11 v14 v21 v24 v31 v34 (ix4 t p q o)
      = mlp v11 v14 v21 v24 v31 v34 (pairRow (fun e => v0 (ix3 t p e)) (fun e => v0 (ix3 t q e))) o := by
  rw [pay_eq]
  have hlt : t.val * 1024 + p.val * 32 + q.val < 8192 := by
    have := t.isLt; have := p.isLt; have := q.isLt; omega
  rw [shapeCast_apply _ shapeCasts_S8192x8_S8x32x32x8 (ix4 t p q o) (ix2 (⟨t.val * 1024 + p.val * 32 + q.val, hlt⟩ : Fin 8192) o) (by
    rw [Shape.rowMajor_val_two, Shape.rowMajor_val_four]
    show (t.val * 1024 + p.val * 32 + q.val) * 8 + o.val = ((t.val * 32 + p.val) * 32 + q.val) * 8 + o.val
    omega)]
  rw [net_apply]
  refine congrArg (fun x => mlp v11 v14 v21 v24 v31 v34 x o) ?_
  funext d
  exact rows_apply v0 t p q _ rfl d

end Cert.KernelIdeal.RowValue

end
-- ==== Proof.PairMlpFlat.lean ====
/-
  Merging the two batch axes changes nothing.

  The kernel works on the states with the batch axes (8, 64) merged into one axis of 512, and its result is split
  back at the end.  Entry (b, l) of the pair of axes is entry 64 · b + l of the merged axis, in the states and in
  the result alike, so the network computed over the merged axis and split back is the network computed over the
  two axes.
-/
import proofs.«117040_j45938970198104_1_alg».proof.Proof.PairMlp
import Idealize.ShloMosaic.Lib.Pipeline.Value

noncomputable section

open scoped BigOperators

namespace Cert.PairMlp

open Idealize.ShloMosaic Idealize.ShloMosaic.ValueIdx

/-- The result over the merged batch axis, split back into (8, 64), is the result over the two batch axes. -/
theorem G_of_flat (st : (⟨4, ![8, 64, 32, 16]⟩ : Shape).Idx → EReal)
    (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 8]⟩ : Shape).Idx → EReal) (b3 : (⟨1, ![8]⟩ : Shape).Idx → EReal)
    (hin : (⟨4, ![8, 64, 32, 16]⟩ : Shape).ShapeCasts ⟨3, ![512, 32, 16]⟩)
    (hout : (⟨4, ![512, 32, 32, 8]⟩ : Shape).ShapeCasts ⟨5, ![8, 64, 32, 32, 8]⟩) :
    shapeCast ⟨5, ![8, 64, 32, 32, 8]⟩ (Gflat (shapeCast ⟨3, ![512, 32, 16]⟩ st hin) W1 b1 W2 b2 W3 b3) hout
      = G st W1 b1 W2 b2 W3 b3 := by
  funext i
  obtain ⟨b, l, p, q, o, rfl⟩ : ∃ (b : Fin 8) (l : Fin 64) (p q : Fin 32) (o : Fin 8), i = ix5 b l p q o :=
    ⟨i 0, i 1, i 2, i 3, i 4, eq_ix5 i⟩
  have hn : b.val * 64 + l.val < 512 := by have := b.isLt; have := l.isLt; omega
  rw [shapeCast_apply _ hout (ix5 b l p q o) (ix4 (⟨b.val * 64 + l.val, hn⟩ : Fin 512) p q o) (by
    rw [Shape.rowMajor_val_four, Shape.rowMajor_val_five]
    show (((b.val * 64 + l.val) * 32 + p.val) * 32 + q.val) * 8 + o.val
      = ((((b.val * 64 + l.val) * 32 + p.val) * 32 + q.val) * 8 + o.val)
    rfl)]
  show mlp W1 b1 W2 b2 W3 b3 (pairRow _ _) o = mlp W1 b1 W2 b2 W3 b3 (pairRow _ _) o
  have hrow : ∀ (a : Fin 32) (d : Fin 16),
      shapeCast ⟨3, ![512, 32, 16]⟩ st hin (ix3 (⟨b.val * 64 + l.val, hn⟩ : Fin 512) a d) = st (ix4 b l a d) := fun a d =>
    shapeCast_apply st hin _ _ (by
      rw [Shape.rowMajor_val_four, Shape.rowMajor_val_three]
      show ((b.val * 64 + l.val) * 32 + a.val) * 16 + d.val = ((b.val * 64 + l.val) * 32 + a.val) * 16 + d.val
      rfl)
  refine congrArg (fun x => mlp W1 b1 W2 b2 W3 b3 x o) ?_
  refine congrArg₂ pairRow ?_ ?_
  · funext d; exact hrow p d
  · funext d; exact hrow q d

end Cert.PairMlp

end
-- ==== Proof.KernelBlocks.lean ====
/-
  The kernel's run, read as a value.

  The pipeline walks 64 grid points; at point t it stages rows 8t … 8t + 7 of the merged-batch states and the six
  weight and bias arrays whole, runs the body, and writes the body's result back as rows 8t … 8t + 7 of the output.
  By `RowValue.pay_apply` the body's result at (s, p, q, o) is the network on pair (p, q) of staged batch entry s,
  which is batch entry 8t + s of the array; so what point t writes back is block t of ONE function of the arrays,
  `Gflat`.  The 64 blocks tile the output (row n lies in block n / 8), so the output array ends as `Gflat`.  The
  host lines around the call merge the batch axes before it and split them after it (`G_of_flat`).
-/
import proofs.«117040_j45938970198104_1_alg».proof.Proof.Gen.KernelIdeal.Frame
import proofs.«117040_j45938970198104_1_alg».proof.Proof.KernelRow
import proofs.«117040_j45938970198104_1_alg».proof.Proof.PairMlpFlat
import Idealize.ShloMosaic.Lib.Pipeline.Value
import Idealize.ShloMosaic.Lib.StableHlo.Run
import Idealize.ShloMosaic.Lib.Tactic

noncomputable section

namespace Cert.KernelIdeal.BlockValue

open Cert.KernelIdeal Cert.KernelIdeal.Gen
open Idealize.ShloMosaic Idealize.ShloMosaic.TcCoe Idealize.SL.Sem
open Idealize.ShloMosaic.Pipeline (Dat)
open Idealize.ShloMosaic.ValueIdx Cert.PairMlp

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The arrays as the call finds them -/

abbrev stArr (c : Dev nD) : Vec Ideal S512x32x16 .f32 := V m c main_v0
abbrev w1Arr (c : Dev nD) : Vec Ideal S32x64 .f32 := V m c main_arg1
abbrev b1Arr (c : Dev nD) : Vec Ideal S64 .f32 := V m c main_arg2
abbrev w2Arr (c : Dev nD) : Vec Ideal S64x64 .f32 := V m c main_arg3
abbrev b2Arr (c : Dev nD) : Vec Ideal S64 .f32 := V m c main_arg4
abbrev w3Arr (c : Dev nD) : Vec Ideal S64x8 .f32 := V m c main_arg5
abbrev b3Arr (c : Dev nD) : Vec Ideal S8 .f32 := V m c main_arg6

/-- What the output array ends holding: the network over the merged batch axis, of those arrays. -/
abbrev Gout (c : Dev nD) : Vec Ideal S512x32x32x8 .f32 :=
  Gflat (stArr m c) (w1Arr m c) (b1Arr m c) (w2Arr m c) (b2Arr m c) (w3Arr m c) (b3Arr m c)

/-! ## Where each window's block sits -/

/-- The printed index maps, decided over the 64 points: the states' and the output's blocks move with the point along
    the batch axis; every other coordinate of every block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 4) = t.val ∧ win0_7.index t (1 : Fin 4) = 0 ∧ win0_7.index t (2 : Fin 4) = 0
    ∧ win0_7.index t (3 : Fin 4) = 0 :=
  (by decide +kernel : ∀ t : Fin grid0.N, _)

/-- The states' block at point t is batch entries 8t … 8t + 7 of the merged-batch array. -/
theorem stBlk_apply (c : Dev nD) (t : Fin cfg0.N) (s : Fin 8) (p : Fin 32) (e : Fin 16) (n : Fin 512)
    (hn : n.val = t.val * 8 + s.val) :
    (iblk m c 0 t : Vec Ideal S8x32x16 .f32) (ix3 s p e) = stArr m c (ix3 n p e) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 8 + 1 * s.val = n.val; rw [e0, hn]; omega
  | ⟨1, _⟩ => show win0_0.index t (1 : Fin 3) * 32 + 1 * p.val = p.val; rw [e1]; omega
  | ⟨2, _⟩ => show win0_0.index t (2 : Fin 3) * 16 + 1 * e.val = e.val; rw [e2]; omega

/-- Window 1's block is its whole array at every point: the index map is constantly zero and the block has the array's extents. -/
theorem w1Blk_eq (c : Dev nD) (t : Fin cfg0.N) (h0 : win0_1.index t (0 : Fin 2) = 0) (h1 : win0_1.index t (1 : Fin 2) = 0) :
    (iblk m c 1 t : Vec Ideal S32x64 .f32) = w1Arr m c := by
  funext y
  unfold iblk
  rw [View.read_apply]
  show V m c main_arg1 _ = V m c main_arg1 y
  congr 1
  funext a
  apply Fin.ext
  match a with
    | ⟨0, _⟩ => show win0_1.index t (0 : Fin 2) * 32 + 1 * (y 0).val = (y 0).val; rw [h0]; omega
    | ⟨1, _⟩ => show win0_1.index t (1 : Fin 2) * 64 + 1 * (y 1).val = (y 1).val; rw [h1]; omega

/-- Window 2's block is its whole array at every point: the index map is constantly zero and the block has the array's extents. -/
theorem b1Blk_eq (c : Dev nD) (t : Fin cfg0.N) (h0 : win0_2.index t (0 : Fin 1) = 0) :
    (iblk m c 2 t : Vec Ideal S64 .f32) = b1Arr m c := by
  funext y
  unfold iblk
  rw [View.read_apply]
  show V m c main_arg2 _ = V m c main_arg2 y
  congr 1
  funext a
  apply Fin.ext
  match a with
    | ⟨0, _⟩ => show win0_2.index t (0 : Fin 1) * 64 + 1 * (y 0).val = (y 0).val; rw [h0]; omega

/-- Window 3's block is its whole array at every point: the index map is constantly zero and the block has the array's extents. -/
theorem w2Blk_eq (c : Dev nD) (t : Fin cfg0.N) (h0 : win0_3.index t (0 : Fin 2) = 0) (h1 : win0_3.index t (1 : Fin 2) = 0) :
    (iblk m c 3 t : Vec Ideal S64x64 .f32) = w2Arr m c := by
  funext y
  unfold iblk
  rw [View.read_apply]
  show V m c main_arg3 _ = V m c main_arg3 y
  congr 1
  funext a
  apply Fin.ext
  match a with
    | ⟨0, _⟩ => show win0_3.index t (0 : Fin 2) * 64 + 1 * (y 0).val = (y 0).val; rw [h0]; omega
    | ⟨1, _⟩ => show win0_3.index t (1 : Fin 2) * 64 + 1 * (y 1).val = (y 1).val; rw [h1]; omega

/-- Window 4's block is its whole array at every point: the index map is constantly zero and the block has the array's extents. -/
theorem b2Blk_eq (c : Dev nD) (t : Fin cfg0.N) (h0 : win0_4.index t (0 : Fin 1) = 0) :
    (iblk m c 4 t : Vec Ideal S64 .f32) = b2Arr m c := by
  funext y
  unfold iblk
  rw [View.read_apply]
  show V m c main_arg4 _ = V m c main_arg4 y
  congr 1
  funext a
  apply Fin.ext
  match a with
    | ⟨0, _⟩ => show win0_4.index t (0 : Fin 1) * 64 + 1 * (y 0).val = (y 0).val; rw [h0]; omega

/-- Window 5's block is its whole array at every point: the index map is constantly zero and the block has the array's extents. -/
theorem w3Blk_eq (c : Dev nD) (t : Fin cfg0.N) (h0 : win0_5.index t (0 : Fin 2) = 0) (h1 : win0_5.index t (1 : Fin 2) = 0) :
    (iblk m c 5 t : Vec Ideal S64x8 .f32) = w3Arr m c := by
  funext y
  unfold iblk
  rw [View.read_apply]
  show V m c main_arg5 _ = V m c main_arg5 y
  congr 1
  funext a
  apply Fin.ext
  match a with
    | ⟨0, _⟩ => show win0_5.index t (0 : Fin 2) * 64 + 1 * (y 0).val = (y 0).val; rw [h0]; omega
    | ⟨1, _⟩ => show win0_5.index t (1 : Fin 2) * 8 + 1 * (y 1).val = (y 1).val; rw [h1]; omega

/-- Window 6's block is its whole array at every point: the index map is constantly zero and the block has the array's extents. -/
theorem b3Blk_eq (c : Dev nD) (t : Fin cfg0.N) (h0 : win0_6.index t (0 : Fin 1) = 0) :
    (iblk m c 6 t : Vec Ideal S8 .f32) = b3Arr m c := by
  funext y
  unfold iblk
  rw [View.read_apply]
  show V m c main_arg6 _ = V m c main_arg6 y
  congr 1
  funext a
  apply Fin.ext
  match a with
    | ⟨0, _⟩ => show win0_6.index t (0 : Fin 1) * 8 + 1 * (y 0).val = (y 0).val; rw [h0]; omega

/-! ## The body on staged batch entries -/

/-- If staged batch entry `s` is entry `n` of the merged-batch array, the body's result at (s, p, q, o) is the
    array's network at (n, p, q, o). -/
theorem body_at (x0 : Vec Ideal S8x32x16 .f32) (st : Vec Ideal S512x32x16 .f32) (W1 : Vec Ideal S32x64 .f32) (b1 : Vec Ideal S64 .f32)
    (W2 : Vec Ideal S64x64 .f32) (b2 : Vec Ideal S64 .f32) (W3 : Vec Ideal S64x8 .f32) (b3 : Vec Ideal S8 .f32)
    (s : Fin 8) (p q : Fin 32) (o : Fin 8) (n : Fin 512)
    (hx : ∀ (a : Fin 32) (e : Fin 16), x0 (ix3 s a e) = st (ix3 n a e)) :
    k0_pay1 (F := Ideal) x0 W1 b1 W2 b2 W3 b3 (ix4 s p q o) = Gflat st W1 b1 W2 b2 W3 b3 (ix4 n p q o) := by
  rw [RowValue.pay_apply]
  show mlp W1 b1 W2 b2 W3 b3 (pairRow _ _) o = mlp W1 b1 W2 b2 W3 b3 (pairRow _ _) o
  refine congrArg (fun x => mlp W1 b1 W2 b2 W3 b3 x o) ?_
  refine congrArg₂ pairRow ?_ ?_
  · funext e; exact hx p e
  · funext e; exact hx q e

/-! ## What a point writes back -/

/-- WHAT POINT t WRITES BACK is block t of `Gout`. -/
theorem flushed_eq (c : Dev nD) (t : Fin cfg0.N) :
    (dats m 0 c).flushed 7 t = ((cfg0.win 7).blk t).view.read (Elt Ideal) (Gout m c) := by
  show (cfg0.win 7).cut (grid0.coords t) ((dats m 0 c).after 7 t) = _
  rw [after0_7]
  unfold out0_7
  rw [View.canon_unit_zero hz4]
  simp only [View.ld_unit_zero (S := S8x32x16) hz3, View.ld_unit_zero (S := S32x64) hz2, View.ld_unit_zero (S := S64) hz1,
    View.ld_unit_zero (S := S64x64) hz2, View.ld_unit_zero (S := S64x8) hz2, View.ld_unit_zero (S := S8) hz1]
  obtain ⟨-, -, -, a10, a11, a20, a30, a31, a40, a50, a51, a60, o0, o1, o2, o3⟩ := idx_facts t
  rw [w1Blk_eq m c t a10 a11, b1Blk_eq m c t a20, w2Blk_eq m c t a30 a31, b2Blk_eq m c t a40, w3Blk_eq m c t a50 a51,
    b3Blk_eq m c t a60]
  have ht : t.val < 64 := lt_of_lt_of_eq t.isLt N_0
  have key : (k0_pay1 (iblk m c 0 t) (w1Arr m c) (b1Arr m c) (w2Arr m c) (b2Arr m c) (w3Arr m c) (b3Arr m c) : Vec Ideal S8x32x32x8 .f32)
      = fun y => Gout m c (((cfg0.win 7).blk t).view.emb y) := by
    funext y
    obtain ⟨s, p, q, o, rfl⟩ : ∃ (s : Fin 8) (p q : Fin 32) (o : Fin 8), y = ix4 s p q o := ⟨y 0, y 1, y 2, y 3, eq_ix4 y⟩
    have hn : t.val * 8 + s.val < 512 := by have := s.isLt; omega
    -- the block's entry (s, p, q, o) is the array's entry (8t + s, p, q, o)
    have hemb : ((cfg0.win 7).blk t).view.emb (ix4 s p q o) = ix4 (⟨t.val * 8 + s.val, hn⟩ : Fin 512) p q o := by
      funext a
      apply Fin.ext
      match a with
      | ⟨0, _⟩ => show win0_7.index t (0 : Fin 4) * 8 + 1 * s.val = t.val * 8 + s.val; rw [o0]; omega
      | ⟨1, _⟩ => show win0_7.index t (1 : Fin 4) * 32 + 1 * p.val = p.val; rw [o1]; omega
      | ⟨2, _⟩ => show win0_7.index t (2 : Fin 4) * 32 + 1 * q.val = q.val; rw [o2]; omega
      | ⟨3, _⟩ => show win0_7.index t (3 : Fin 4) * 8 + 1 * o.val = o.val; rw [o3]; omega
    refine (body_at (iblk m c 0 t) (stArr m c) (w1Arr m c) (b1Arr m c) (w2Arr m c) (b2Arr m c) (w3Arr m c) (b3Arr m c) s p q o
      (⟨t.val * 8 + s.val, hn⟩ : Fin 512) (fun a e => stBlk_apply m c t s a e (⟨t.val * 8 + s.val, hn⟩ : Fin 512) rfl)).trans ?_
    exact congrArg (Gout m c) hemb.symm
  exact key

/-! ## The blocks tile the output -/

/-- An index of the output array is in point t's block iff each coordinate is in the block's range on its axis. -/
theorem mem_blk (t : Fin cfg0.N) (i : S512x32x32x8.Idx) :
    i ∈ ((cfg0.win 7).blk t).view.set ↔ ∀ a : Fin 4, win0_7.index t a * S8x32x32x8.size a ≤ (i a).val
      ∧ (i a).val < win0_7.index t a * S8x32x32x8.size a + S8x32x32x8.size a := by
  show i ∈ ((View.whole main_v1).slice (win0_7.rect t)).set ↔ _
  rw [View.set_slice_whole, Rect.mem_set_unit]
  exact Iff.rfl

/-- Every block of eight batch entries is some point's. -/
theorem idx_onto : ∀ q0 : Fin 64, ∃ t : Fin cfg0.N, win0_7.index t = ![q0.val, 0, 0, 0] :=
  (by decide +kernel : ∀ q0 : Fin 64, ∃ t : Fin grid0.N, win0_7.index t = ![q0.val, 0, 0, 0])

/-- Row n of the output lies in the block of point n / 8, which is written back. -/
theorem covered (i : S512x32x32x8.Idx) :
    ∃ t : Fin cfg0.N, (cfg0.win 7).flush t = true ∧ i ∈ ((cfg0.win 7).blk t).view.set := by
  have h0 : (i 0).val < 512 := (i 0).isLt
  have h1 : (i 1).val < 32 := (i 1).isLt
  have h2 : (i 2).val < 32 := (i 2).isLt
  have h3 : (i 3).val < 8 := (i 3).isLt
  obtain ⟨t, ht⟩ := idx_onto ⟨(i 0).val / 8, by omega⟩
  have q0 : win0_7.index t (0 : Fin 4) = (i 0).val / 8 := congrFun ht 0
  have q1 : win0_7.index t (1 : Fin 4) = 0 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 8 ≤ (i 0).val ∧ (i 0).val < win0_7.index t (0 : Fin 4) * 8 + 8; omega
  | ⟨1, _⟩ => show win0_7.index t (1 : Fin 4) * 32 ≤ (i 1).val ∧ (i 1).val < win0_7.index t (1 : Fin 4) * 32 + 32; omega
  | ⟨2, _⟩ => show win0_7.index t (2 : Fin 4) * 32 ≤ (i 2).val ∧ (i 2).val < win0_7.index t (2 : Fin 4) * 32 + 32; omega
  | ⟨3, _⟩ => show win0_7.index t (3 : Fin 4) * 8 ≤ (i 3).val ∧ (i 3).val < win0_7.index t (3 : Fin 4) * 8 + 8; omega

/-- THE OUTPUT ARRAY after the call: the network over the merged batch axis. -/
theorem final (c : Dev nD) : (dats m 0 c).arrAt 7 cfg0.N = Gout m c :=
  (dats m 0 c).arrAt_eq_of_cover 7 (Gout m c) (fun t _ => flushed_eq m c t) covered

/-! ## The host lines around the call -/

/-- Before the call: the states with their two batch axes merged. -/
theorem stArr_eq (c : Dev nD) :
    stArr m c = shapeCast S512x32x16 (m ((c : Thread nD τ).loc main_arg0)) shapeCasts_S8x64x32x16_S512x32x16 := by
  show StableHlo.after hostOps0 (fun b => m (c, b)) (Proc.devRef .tc main_v0) = _
  after_results
  rfl

/-- After the call: the output array with its batch axis split back. -/
theorem tail_eq (c : Dev nD) :
    Pipeline.afterTail₀ cfgs (dats m) 0 (V0 m) [hostOps1] c main_v2
      = shapeCast S8x64x32x32x8 (Gout m c) shapeCasts_S512x32x32x8_S8x64x32x32x8 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = Gout m c :=
    (Pipeline.withArrays_arr spec0 launch0.win.arr_inj c _ _ 7).trans (final m c)
  refine Eq.trans ?_ (congrArg (fun x => shapeCast S8x64x32x32x8 x shapeCasts_S512x32x32x8_S8x64x32x32x8) hw)
  rfl

/-- Merged, run through the network, split back: the network over the two batch axes, of the arguments as launched. -/
theorem split_eq (c : Dev nD) :
    shapeCast S8x64x32x32x8 (Gout m c) shapeCasts_S512x32x32x8_S8x64x32x32x8
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  show shapeCast S8x64x32x32x8 (Gflat (stArr m c) (w1Arr m c) (b1Arr m c) (w2Arr m c) (b2Arr m c) (w3Arr m c) (b3Arr m c)) _ = _
  rw [stArr_eq m c, show w1Arr m c = _ from V_main_arg1 m c, show b1Arr m c = _ from V_main_arg2 m c,
    show w2Arr m c = _ from V_main_arg3 m c, show b2Arr m c = _ from V_main_arg4 m c,
    show w3Arr m c = _ from V_main_arg5 m c, show b3Arr m c = _ from V_main_arg6 m c]
  exact G_of_flat _ _ _ _ _ _ _ _ _

/-! ## The run, read -/

/-- Every weakly fair execution of the kernel program ends with its result at the network of the arguments as
    launched, entry by entry, and the arguments unchanged. -/
theorem run : θ_run defs (onTc (τ := τ) (main (F := Ideal))) ⟨m, fun _ => 0, ρ⟩ fun r => ∀ c : Dev nD,
      r.2.mem ((c.tc : Thread nD τ).loc main_v2)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v2 (Pipeline.mem_restRefs_of main_v2 (by decide) (by decide))).trans ((tail_eq m c).trans (split_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.BlockValue

end
-- ==== Proof.lean ====
/-
  A pairwise network kernel against its plain reference, over the extended reals.

  For every batch entry and every ordered pair of agents (p, q), both programs feed the 32 numbers "agent p's state,
  then agent q's state" through three dense layers (32 → 64 → 64 → 8), with the positive part after the first two and
  the logistic function after the third.  The kernel flattens eight batch entries' pairs into 8192 rows and runs each
  layer as one matrix product on operands narrowed to a shorter float format; the reference contracts the last axis
  of a five-axis array and spells the logistic function as 1 / (1 + e^(-v)).  Over the extended reals narrowing
  changes no value, a matrix product into a zero accumulator is the sum of products over the shared axis, and the
  logistic function is that quotient, so both programs compute the same sum of the same products for every entry:
  `Cert.PairMlp.G` of the argument arrays.  No rearrangement of a sum is involved, so the finiteness of the inputs
  is never used.

  The pieces: `PairMlp` states the function; `RefValue` reads the reference's operations at an entry; `KernelRow`
  reads the kernel body's value at an entry; `KernelBlocks` reads the pipelined call block by block and the two
  reshapes around it; `PairMlpFlat` joins the merged-batch form to the two-axis form.
-/
import proofs.«117040_j45938970198104_1_alg».proof.Defs
import proofs.«117040_j45938970198104_1_alg».proof.Proof.Gen.Kernel
import proofs.«117040_j45938970198104_1_alg».proof.Proof.Gen.Kernel.Skeleton
import proofs.«117040_j45938970198104_1_alg».proof.Proof.Gen.Kernel.Launch
import proofs.«117040_j45938970198104_1_alg».proof.Proof.Gen.Kernel.Points
import proofs.«117040_j45938970198104_1_alg».proof.Proof.Gen.Kernel.Frame
import proofs.«117040_j45938970198104_1_alg».proof.Proof.Gen.KernelIdeal
import proofs.«117040_j45938970198104_1_alg».proof.Proof.Gen.KernelIdeal.Skeleton
import proofs.«117040_j45938970198104_1_alg».proof.Proof.Gen.KernelIdeal.Launch
import proofs.«117040_j45938970198104_1_alg».proof.Proof.Gen.KernelIdeal.Points
import proofs.«117040_j45938970198104_1_alg».proof.Proof.Gen.KernelIdeal.Frame
import proofs.«117040_j45938970198104_1_alg».proof.Proof.Gen.ReferenceIdeal
import proofs.«117040_j45938970198104_1_alg».proof.Proof.Gen.ReferenceIdeal.Run
import proofs.«117040_j45938970198104_1_alg».proof.Proof.Gen.ReferenceIdeal.Read
import proofs.«117040_j45938970198104_1_alg».proof.Proof.Gen.Pre_finite_inputs
import proofs.«117040_j45938970198104_1_alg».proof.Proof.RefValue
import proofs.«117040_j45938970198104_1_alg».proof.Proof.KernelBlocks
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result and the reference's are both the network
    `Cert.PairMlp.G` of the arguments, entry by entry. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
